-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg2 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg1 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  let main_c_7 : IVec S_ 32 := constantI S_ 32 0#32
  let main_v21 : IVec S1600000 32 := broadcastInDim S1600000 ![] bcast_S_S1600000 main_c_7
  let main_v22 : IVec S1600000 1 := cmpi .sge main_arg2 main_v21
  let main_c_8 : IVec S_ 32 := constantI S_ 32 100000#32
  let main_v23 : IVec S1600000 32 := broadcastInDim S1600000 ![] bcast_S_S1600000 main_c_8
  let main_v24 : IVec S1600000 1 := cmpi .slt main_arg2 main_v23
  let main_v25 : IVec S1600000 1 := andi main_v22 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v20 main_v26
  main_v27

def fn {F : FTy → Type} [FloatOps F] (main_arg0 : FVec F S100000x128 .f32) (main_arg1 : IVec S1600000 32) (main_arg2 : IVec S1600000 32) (main_arg3 : FVec F S256x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg1 main_v14
  let main_c_5 : IVec S_ 32 := constantI S_ 32 100000#32
  fn_part1 (F := F) main_arg1 main_arg2 main_v13 main_v15 main_c_5
-- ==== Kernel.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S4000x128 : Shape := ⟨2, ![4000, 128]⟩
abbrev S4000x256 : Shape := ⟨2, ![4000, 256]⟩
abbrev S1600000x1 : Shape := ⟨2, ![1600000, 1]⟩
abbrev S1600000x128 : Shape := ⟨2, ![1600000, 128]⟩
abbrev S1x128 : Shape := ⟨2, ![1, 128]⟩
abbrev S_ : Shape := ⟨0, ![]⟩

abbrev nBuf : Space → Nat
  | .hbm => 28
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S100000x128, .bf16⟩
  | .hbm, ⟨9, _⟩ => ⟨S100000x128, .bf16⟩
  | .hbm, ⟨10, _⟩ => ⟨S1600000x1, .i32⟩
  | .hbm, ⟨11, _⟩ => ⟨S1600000x128, .bf16⟩
  | .hbm, ⟨12, _⟩ => ⟨S1600000x1, .i32⟩
  | .hbm, ⟨13, _⟩ => ⟨S1600000x128, .bf16⟩
  | .hbm, ⟨14, _⟩ => ⟨S1600000x128, .f32⟩
  | .hbm, ⟨15, _⟩ => ⟨S1600000x128, .f32⟩
  | .hbm, ⟨16, _⟩ => ⟨S1600000x128, .f32⟩
  | .hbm, ⟨17, _⟩ => ⟨S1x128, .f32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S1600000x128, .f32⟩
  | .hbm, ⟨27, _⟩ => ⟨S1600000x128, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_call0_v0 : Ref sig .tc := ⟨.hbm, 10, rfl⟩
abbrev main_v4 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4000x256_o0_0_S4000x128 : S4000x256.Slices ![0, 0] S4000x128
  packedbf16_S4000x128_S4000x128_0_0 : (Rect.unit (s := S4000x128) ![0, 0] S4000x128.size inb_S4000x128_S4000x128_0_0).PackedRows (EltTy.packing .bf16)
  slices_S4000x256_o0_128_S4000x128 : S4000x256.Slices ![0, 128] S4000x128
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  dot_S4000x128_S128x256_S4000x256_1_0_0_1_n_n_wf : DotDims.WF S4000x128 S128x256 S4000x256 [1] [0] [0] [1] [] []
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S1x128, .f32⟩
  | .hbm, ⟨29, _⟩ => ⟨S1600000x128, .f32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.KernelPayload.lean ====
/-
  The kernel body's two stored values, read at an element.

  The body multiplies its `[4000, 128]` block of the node table by the whole `[128, 256]` weight (the two halves side by
  side) into a zero accumulator, and stores columns `0 … 127` of the product in one output block and columns
  `128 … 255` in the other. On the extended reals the changes of float format are the identity and the product into a
  zero accumulator is the plain sum over the contracted axis, so element `(r, c)` of the first stored value is
  `Σ_k x[r, k] · w[k, c]` and of the second `Σ_k x[r, k] · w[k, 128 + c]`.
-/
import proofs.«404936_j82592221102892_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.NodeProj

open Cert.KernelIdeal Cert.KernelIdeal.Gen Idealize.ShloMosaic Idealize.ShloMosaic.ValueIdx

/-! ## The product's operand indices, axis by axis -/

theorem lhs_row (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_col (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_row (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_col (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The whole `[4000, 256]` product at `(r, c)`: the sum over the 128 contracted positions. -/
theorem product_apply (x : Vec Ideal S4000x128 .f32) (w : Vec Ideal S128x256 .f32) (r : Fin 4000) (c : Fin 256) :
    k0_pay1 (F := Ideal) x w (ix2 r c) = ∑ k : Fin 128, x (ix2 r k) * w (ix2 k c) := by
  unfold k0_pay1
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 r c) ((contrEquiv1 dot_S4000x128_S128x256_S4000x256_1_0_0_1_n_n 128 rfl rfl).symm k) = ix2 r k := funext fun a => Fin.ext (by
    match a with
    | ⟨0, _⟩ => exact lhs_row _ _
    | ⟨1, _⟩ => exact (lhs_col _ _).trans hk)
  have er : dot_S4000x128_S128x256_S4000x256_1_0_0_1_n_n.rhsIdx (ix2 r c) ((contrEquiv1 dot_S4000x128_S128x256_S4000x256_1_0_0_1_n_n 128 rfl rfl).symm k) = ix2 k c := funext fun a => Fin.ext (by
    match a with
    | ⟨0, _⟩ => exact (rhs_row _ _).trans hk
    | ⟨1, _⟩ => exact rhs_col _ _)
  rw [el, er, shapeCast_self]
  rfl

/-- Column `c` of the product's left half, as a column of the product. -/
abbrev leftCol (c : Fin 128) : Fin 256 := ⟨c.val, by omega⟩
/-- Column `c` of the product's right half: column `128 + c` of the product. -/
abbrev rightCol (c : Fin 128) : Fin 256 := ⟨128 + c.val, by omega⟩

/-- The first stored value at `(r, c)`. -/
theorem left_apply (x : Vec Ideal S4000x128 .f32) (w : Vec Ideal S128x256 .f32) (r : Fin 4000) (c : Fin 128) :
    k0_pay2 (F := Ideal) x w (ix2 r c) = ∑ k : Fin 128, x (ix2 r k) * w (ix2 k (leftCol c)) := by
  unfold k0_pay2
  refine Eq.trans ?_ (product_apply x w r (leftCol c))
  show extractStridedSlice S4000x128 ![0, 0] (k0_pay1 (F := Ideal) x w) slices_S4000x256_o0_0_S4000x128 (ix2 r c) = _
  exact extractStridedSlice_apply ![0, 0] _ slices_S4000x256_o0_0_S4000x128 (ix2 r c) (ix2 r (leftCol c)) (fun a => match a with
    | ⟨0, _⟩ => by show r.val = 0 + r.val; omega
    | ⟨1, _⟩ => by show c.val = 0 + c.val; omega)

/-- The second stored value at `(r, c)`. -/
theorem right_apply (x : Vec Ideal S4000x128 .f32) (w : Vec Ideal S128x256 .f32) (r : Fin 4000) (c : Fin 128) :
    k0_pay3 (F := Ideal) x w (ix2 r c) = ∑ k : Fin 128, x (ix2 r k) * w (ix2 k (rightCol c)) := by
  unfold k0_pay3
  refine Eq.trans ?_ (product_apply x w r (rightCol c))
  show extractStridedSlice S4000x128 ![0, 128] (k0_pay1 (F := Ideal) x w) slices_S4000x256_o0_128_S4000x128 (ix2 r c) = _
  exact extractStridedSlice_apply ![0, 128] _ slices_S4000x256_o0_128_S4000x128 (ix2 r c) (ix2 r (rightCol c)) (fun a => match a with
    | ⟨0, _⟩ => by show r.val = 0 + r.val; omega
    | ⟨1, _⟩ => by show 128 + c.val = 128 + c.val; omega)

end Cert.KernelIdeal.NodeProj

end
-- ==== Proof.KernelTables.lean ====
/-
  The two projected tables after the region.

  Grid point `t` (of 25) reads rows `4000·t … 4000·t + 3999` of the node table and the whole weight pair, and writes
  back the same rows of both output tables: the left half of the product into the first, the right half into the
  second. So what a point writes back is its block of ONE whole-table function of the arguments, the 25 blocks tile
  the `[100000, 128]` tables, and after the run the first table holds `Σ_k x[r, k] · w[k, c]` and the second
  `Σ_k x[r, k] · w[k, 128 + c]` at every `(r, c)`.
-/
import proofs.«404936_j82592221102892_3_alg».proof.Proof.Gen.KernelIdeal.Frame
import proofs.«404936_j82592221102892_3_alg».proof.Proof.KernelPayload

set_option maxRecDepth 16384

noncomputable section

open scoped BigOperators

namespace Cert.KernelIdeal.NodeProj

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- A table of projections: row `r` of `x` against the columns `col c` of the weight pair `w`. -/
def table (x : Vec Ideal S100000x128 .f32) (w : Vec Ideal S128x256 .f32) (col : Fin 128 → Fin 256) : Vec Ideal S100000x128 .bf16 :=
  fun i => ∑ k : Fin 128, x (ix2 (i 0) k) * w (ix2 k (col (i 1)))

theorem hz : (![0, 0] : Fin 2 → Nat) = fun _ => 0 := funext fun a => by fin_cases a <;> rfl

/-- The stored values at any element of the block, by its coordinates. -/
theorem left_at (x : Vec Ideal S4000x128 .f32) (w : Vec Ideal S128x256 .f32) (j : S4000x128.Idx) :
    k0_pay2 (F := Ideal) x w j = ∑ k : Fin 128, x (ix2 (j 0) k) * w (ix2 k (leftCol (j 1))) := by
  obtain ⟨p, q, rfl⟩ : ∃ (p : Fin 4000) (q : Fin 128), j = ix2 p q := ⟨j 0, j 1, eq_ix2 j⟩
  exact left_apply x w p q
theorem right_at (x : Vec Ideal S4000x128 .f32) (w : Vec Ideal S128x256 .f32) (j : S4000x128.Idx) :
    k0_pay3 (F := Ideal) x w j = ∑ k : Fin 128, x (ix2 (j 0) k) * w (ix2 k (rightCol (j 1))) := by
  obtain ⟨p, q, rfl⟩ : ∃ (p : Fin 4000) (q : Fin 128), j = ix2 p q := ⟨j 0, j 1, eq_ix2 j⟩
  exact right_apply x w p q

/-- The printed index maps over the grid: the node window and both output windows sit at block row `t`, block
    column 0; the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto : ∀ q : Fin 25, ∃ t : Fin cfg0.N, t.val = q.val :=
  (by decide +kernel : ∀ q : Fin 25, ∃ t : Fin grid0.N, t.val = q.val)

/-- The node block at a point is the node table read at the point's rows. -/
theorem nodes_blk (c : Dev nD) (t : Fin cfg0.N) (p : Fin 4000) (k : Fin 128) (r : Fin 100000) (hr : r.val = t.val * 4000 + p.val) :
    iblk m c 0 t (ix2 p k) = V m c main_arg0 (ix2 r k) := by
  obtain ⟨e0, e1, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- The weight block at every point is the whole weight pair. -/
theorem weights_blk (c : Dev nD) (t : Fin cfg0.N) (k : Fin 128) (q : Fin 256) :
    iblk m c 1 t (ix2 k q) = V m c main_v2 (ix2 k q) := by
  obtain ⟨-, -, e2, e3, -⟩ := idx_facts t
  show V m c main_v2 (((cfg0.win 1).blk t).view.emb (ix2 k q)) = V m c main_v2 (ix2 k q)
  refine congrArg (V m c main_v2) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- WHAT POINT `t` WRITES BACK to the first table is block `t` of the left projections. -/
theorem flushed_left (c : Dev nD) (t : Fin cfg0.N) :
    (dats m 0 c).flushed 2 t = ((cfg0.win 2).blk t).view.read (Elt Ideal) (table (V m c main_arg0) (V m c main_v2) leftCol) := by
  show (cfg0.win 2).cut (grid0.coords t) ((dats m 0 c).after 2 t) = _
  rw [after0_2]
  unfold out0_2
  rw [View.canon_unit_zero hz]
  simp only [View.ld_unit_zero (S := S4000x128) hz, View.ld_unit_zero (S := S128x256) hz]
  obtain ⟨-, -, -, -, e4, e5, -⟩ := idx_facts t
  funext j
  show k0_pay2 (F := Ideal) (iblk m c 0 t) (iblk m c 1 t) j = table (V m c main_arg0) (V m c main_v2) leftCol (((cfg0.win 2).blk t).view.emb j)
  refine (left_at (iblk m c 0 t) (iblk m c 1 t) j).trans ?_
  unfold table
  refine Finset.sum_congr rfl fun k _ => ?_
  have hj0 : (j 0).val < 4000 := (j 0).isLt
  have hj1 : (j 1).val < 128 := (j 1).isLt
  have hrow : ((((cfg0.win 2).blk t).view.emb j) 0).val = t.val * 4000 + (j 0).val := by
    show win0_2.index t (0 : Fin 2) * 4000 + 1 * (j 0).val = _; omega
  have hcol : ((((cfg0.win 2).blk t).view.emb j) 1) = j 1 := Fin.ext (by
    show win0_2.index t (1 : Fin 2) * 128 + 1 * (j 1).val = _; omega)
  rw [nodes_blk m c t (j 0) k ((((cfg0.win 2).blk t).view.emb j) 0) hrow, weights_blk m c t k (leftCol (j 1)), hcol]

/-- WHAT POINT `t` WRITES BACK to the second table is block `t` of the right projections. -/
theorem flushed_right (c : Dev nD) (t : Fin cfg0.N) :
    (dats m 0 c).flushed 3 t = ((cfg0.win 3).blk t).view.read (Elt Ideal) (table (V m c main_arg0) (V m c main_v2) rightCol) := by
  show (cfg0.win 3).cut (grid0.coords t) ((dats m 0 c).after 3 t) = _
  rw [after0_3]
  unfold out0_3
  rw [View.canon_unit_zero hz]
  simp only [View.ld_unit_zero (S := S4000x128) hz, View.ld_unit_zero (S := S128x256) hz]
  obtain ⟨-, -, -, -, -, -, e6, e7⟩ := idx_facts t
  funext j
  show k0_pay3 (F := Ideal) (iblk m c 0 t) (iblk m c 1 t) j = table (V m c main_arg0) (V m c main_v2) rightCol (((cfg0.win 3).blk t).view.emb j)
  refine (right_at (iblk m c 0 t) (iblk m c 1 t) j).trans ?_
  unfold table
  refine Finset.sum_congr rfl fun k _ => ?_
  have hj0 : (j 0).val < 4000 := (j 0).isLt
  have hj1 : (j 1).val < 128 := (j 1).isLt
  have hrow : ((((cfg0.win 3).blk t).view.emb j) 0).val = t.val * 4000 + (j 0).val := by
    show win0_3.index t (0 : Fin 2) * 4000 + 1 * (j 0).val = _; omega
  have hcol : ((((cfg0.win 3).blk t).view.emb j) 1) = j 1 := Fin.ext (by
    show win0_3.index t (1 : Fin 2) * 128 + 1 * (j 1).val = _; omega)
  rw [nodes_blk m c t (j 0) k ((((cfg0.win 3).blk t).view.emb j) 0) hrow, weights_blk m c t k (rightCol (j 1)), hcol]

/-- An index of a table is in point `t`'s block iff each coordinate is in the block's range on its axis. -/
theorem mem_blk_left (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v3_0).slice (win0_2.rect t)).set ↔ _
  rw [View.set_slice_whole, Rect.mem_set_unit]
  exact Iff.rfl
theorem mem_blk_right (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v3_1).slice (win0_3.rect t)).set ↔ _
  rw [View.set_slice_whole, Rect.mem_set_unit]
  exact Iff.rfl

/-- The 25 blocks tile each table: row `r` is in the block of point `r / 4000`. -/
theorem cover_left (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 4000, by omega⟩
  have ht' : t.val = (i 0).val / 4000 := ht
  obtain ⟨-, -, -, -, e4, e5, -⟩ := idx_facts t
  refine ⟨t, flush0_2 t, ?_⟩
  rw [mem_blk_left]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega
theorem cover_right (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 4000, by omega⟩
  have ht' : t.val = (i 0).val / 4000 := ht
  obtain ⟨-, -, -, -, -, -, e6, e7⟩ := idx_facts t
  refine ⟨t, flush0_3 t, ?_⟩
  rw [mem_blk_right]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE TABLES after the run. -/
theorem final_left (c : Dev nD) : (dats m 0 c).arrAt 2 cfg0.N = table (V m c main_arg0) (V m c main_v2) leftCol :=
  (dats m 0 c).arrAt_eq_of_cover 2 (table (V m c main_arg0) (V m c main_v2) leftCol) (fun t _ => flushed_left m c t) cover_left
theorem final_right (c : Dev nD) : (dats m 0 c).arrAt 3 cfg0.N = table (V m c main_arg0) (V m c main_v2) rightCol :=
  (dats m 0 c).arrAt_eq_of_cover 3 (table (V m c main_arg0) (V m c main_v2) rightCol) (fun t _ => flushed_right m c t) cover_right

end Cert.KernelIdeal.NodeProj

end
-- ==== Proof.Spec.lean ====
/-
  The edge score, as one function of the argument arrays.

  For an edge `e` with endpoints `s e` and `d e` (row numbers of the node table `h : [100000, 128]`), a weight
  `W : [256, 128]` read as two stacked `[128, 128]` halves and a bias `b : [128]`, the logit of class `c` is
      (Σ_k h[s e, k] · W[k, c]) + (Σ_k h[d e, k] · W[128 + k, c]) + b[c]
  and the score is the logistic function `1 / (1 + exp (−logit))`, all on the extended reals. Projecting every node once
  and then reading the projected rows of the two endpoints, or reading the endpoints' rows first and projecting each
  edge, gives this same term: no sum is regrouped, so no finiteness is needed.

  Also here: what the two signed compare bits `0 ≤ v` and `v < 100000` of a 32-bit word say of its signed value, and
  that such a word fails the test `v < 0` (so a wrap-around of negative row numbers leaves it alone).
-/
import Idealize.ShloMosaic.Lib.ValueIdx

noncomputable section

open scoped BigOperators

namespace EdgeScore

open Idealize.ShloMosaic Idealize.ShloMosaic.ValueIdx

abbrev SNodes : Shape := ⟨2, ![100000, 128]⟩
abbrev SEdges : Shape := ⟨1, ![1600000]⟩
abbrev SWeight : Shape := ⟨2, ![256, 128]⟩
abbrev SBias : Shape := ⟨1, ![128]⟩
abbrev SScores : Shape := ⟨2, ![1600000, 128]⟩

/-- Row `k` of the weight's upper half. -/
abbrev upper (k : Fin 128) : Fin 256 := ⟨k.val, by omega⟩
/-- Row `k` of the weight's lower half: row `128 + k` of the weight. -/
abbrev lower (k : Fin 128) : Fin 256 := ⟨128 + k.val, by omega⟩

/-- Node `r` projected by one half of the weight, class `c`. -/
def proj (h : FVec Ideal SNodes .f32) (W : FVec Ideal SWeight .f32) (half : Fin 128 → Fin 256) (r : Fin 100000) (c : Fin 128) : EReal :=
  ∑ k : Fin 128, h (ix2 r k) * W (ix2 (half k) c)

/-- The logit of edge `e`, class `c`. -/
def logit (h : FVec Ideal SNodes .f32) (W : FVec Ideal SWeight .f32) (b : FVec Ideal SBias .f32)
    (s d : Fin 1600000 → Fin 100000) (e : Fin 1600000) (c : Fin 128) : EReal :=
  proj h W upper (s e) c + proj h W lower (d e) c + b (ix1 c)

/-- The logistic function as both programs spell it: `1 / (1 + exp (−x))`, the host's quotient and exponential. -/
def logistic (x : EReal) : EReal :=
  Ideal.div (Ideal.ofBits .f32 0x3F800000#32) (Ideal.ofBits .f32 0x3F800000#32 + Ideal.exp (-x))

/-- THE RESULT: the score of every edge and class. -/
def score (h : FVec Ideal SNodes .f32) (W : FVec Ideal SWeight .f32) (b : FVec Ideal SBias .f32)
    (s d : Fin 1600000 → Fin 100000) : FVec Ideal SScores .f32 :=
  fun i => logistic (logit h W b s d (i 0) (i 1))

/-! ## Row numbers as 32-bit words -/

/-- The compare bits `0 ≤ v` and `v < 100000` (signed) say the signed value is a row number. -/
theorem toInt_range_of_bits (v : BitVec 32) (h0 : IntOp.cmpi .sge v 0#32 = 1#1) (h1 : IntOp.cmpi .slt v 100000#32 = 1#1) :
    0 ≤ v.toInt ∧ v.toInt < 100000 := by
  have e0 : (0#32 : BitVec 32).toInt = 0 := by decide
  have e1 : (100000#32 : BitVec 32).toInt = 100000 := by decide
  constructor
  · have : (0#32 : BitVec 32).sle v = true := by
      have hb : BitVec.ofBool ((0#32 : BitVec 32).sle v) = 1#1 := h0
      revert hb
      cases (0#32 : BitVec 32).sle v <;> decide
    simp only [BitVec.sle, e0, decide_eq_true_eq] at this
    exact this
  · have : v.slt 100000#32 = true := by
      have hb : BitVec.ofBool (v.slt 100000#32) = 1#1 := h1
      revert hb
      cases v.slt 100000#32 <;> decide
    simp only [BitVec.slt, e1, decide_eq_true_eq] at this
    exact this

/-- A word whose signed value is not negative fails the signed test `v < 0`. -/
theorem slt_zero_of_nonneg (v : BitVec 32) (h : 0 ≤ v.toInt) : IntOp.cmpi .slt v 0#32 = 0#1 := by
  have e0 : (0#32 : BitVec 32).toInt = 0 := by decide
  have : v.slt 0#32 = false := by
    simp only [BitVec.slt, e0, decide_eq_false_iff_not, not_lt]
    exact h
  show BitVec.ofBool (v.slt 0#32) = 0#1
  rw [this]
  rfl

/-- The row number a word in range names. -/
def rowOf (v : BitVec 32) (hv : 0 ≤ v.toInt ∧ v.toInt < 100000) : Fin 100000 :=
  ⟨v.toInt.toNat, by omega⟩

theorem toInt_eq_rowOf (v : BitVec 32) (hv : 0 ≤ v.toInt ∧ v.toInt < 100000) : v.toInt = ((rowOf v hv).val : Int) := by
  show v.toInt = ((v.toInt.toNat : Nat) : Int)
  rw [Int.toNat_of_nonneg hv.1]

end EdgeScore

end
-- ==== Proof.KernelWeights.lean ====
/-
  The weight pair the region finds.

  Before the region the host cuts the `[256, 128]` weight into its upper and lower `[128, 128]` halves and lays them
  side by side as one `[128, 256]` array. Element `(k, c)` of the left half of that array is the weight's `(k, c)`;
  element `(k, 128 + c)`, in the right half, is the weight's `(128 + k, c)`.
-/
import proofs.«404936_j82592221102892_3_alg».proof.Proof.Gen.KernelIdeal.Frame
import proofs.«404936_j82592221102892_3_alg».proof.Proof.KernelPayload
import proofs.«404936_j82592221102892_3_alg».proof.Proof.Spec
import Idealize.ShloMosaic.Lib.StableHlo.Run

noncomputable section

namespace Cert.KernelIdeal.NodeProj

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The weight pair as the host's three operations of the weight argument. -/
theorem wpair_eq (c : Dev nD) :
    (V m c main_v2 : S128x256.Idx → EReal)
      = concatenate S128x256 1 [⟨S128x128, extractStridedSlice S128x128 ![0, 0] (m ((c : Thread nD τ).loc main_arg3)) slices_S256x128_S128x128_0_0⟩,
          ⟨S128x128, extractStridedSlice S128x128 ![128, 0] (m ((c : Thread nD τ).loc main_arg3)) slices_S256x128_S128x128_128_0⟩]
          concatenates_S128x128_S128x128_S128x256_d1 := by
  show StableHlo.after hostOps0 (fun b => m (c, b)) (Proc.devRef .tc main_v2) = _
  after_results

/-- A left-half element of the weight pair is the upper half's. -/
theorem wpair_left (c : Dev nD) (k q : Fin 128) :
    V m c main_v2 (ix2 k (leftCol q)) = m ((c : Thread nD τ).loc main_arg3) (ix2 (EdgeScore.upper k) q) := by
  rw [wpair_eq]
  refine (concatenate_pair_apply_left (s₁ := S128x128) (s₂ := S128x128) (1 : Fin 2) _ _ concatenates_S128x128_S128x128_S128x256_d1 (ix2 k (leftCol q)) rfl (ix2 k q)
    (fun b => match b with | ⟨0, _⟩ => rfl | ⟨1, _⟩ => rfl)).trans ?_
  exact extractStridedSlice_apply ![0, 0] _ slices_S256x128_S128x128_0_0 (ix2 k q) (ix2 (EdgeScore.upper k) q) (fun a => match a with
    | ⟨0, _⟩ => by show k.val = 0 + k.val; omega
    | ⟨1, _⟩ => by show q.val = 0 + q.val; omega)

/-- A right-half element of the weight pair is the lower half's. -/
theorem wpair_right (c : Dev nD) (k q : Fin 128) :
    V m c main_v2 (ix2 k (rightCol q)) = m ((c : Thread nD τ).loc main_arg3) (ix2 (EdgeScore.lower k) q) := by
  rw [wpair_eq]
  refine (concatenate_pair_apply_right (s₁ := S128x128) (s₂ := S128x128) (1 : Fin 2) _ _ concatenates_S128x128_S128x128_S128x256_d1 (ix2 k (rightCol q)) rfl rfl (ix2 k q)
    (fun b hb => match b with | ⟨0, _⟩ => rfl | ⟨1, _⟩ => absurd rfl hb) (by show q.val + 128 = 128 + q.val; omega)).trans ?_
  exact extractStridedSlice_apply ![128, 0] _ slices_S256x128_S128x128_128_0 (ix2 k q) (ix2 (EdgeScore.lower k) q) (fun a => match a with
    | ⟨0, _⟩ => by show 128 + k.val = 128 + k.val; omega
    | ⟨1, _⟩ => by show q.val = 0 + q.val; omega)

end Cert.KernelIdeal.NodeProj

end
-- ==== Proof.LibRowGather.lean ====
/-
  A row gather read at an index.

  `table[idx]` over a rank-2 table `[N, C]` with a vector of `n` row numbers lowers to a `stablehlo.gather` whose start
  indices are the `[n, 1]` column of row numbers, whose operand axis 0 is collapsed and start-indexed, whose operand axis 1
  is the one offset axis (slice sizes `[1, C]`), with no batching axes and the index vector on axis 1. Result element
  `(p, q)` is the table's element `(r, q)`, where `r` is row `p`'s start index read as a signed integer and clamped into
  `[0, N − 1]`; when that integer is already a row number, no clamp is left.
-/
import Idealize.ShloMosaic.Lib.ValueIdx

noncomputable section

namespace RowGather

open Idealize.ShloMosaic Idealize.ShloMosaic.ValueIdx

variable {α : Type}

/-- Result element `(p, q)` of a row gather is the table at the clamped start index of row `p`, column `q`. The five
    hypotheses are the printed dimension numbers, each closed by `rfl` at a printed record. -/
theorem gather_rows_apply {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  obtain ⟨od, cd, obd, sibd, sim, ivd, ss, wf⟩ := d
  dsimp only at hoff hcoll hob hsim hivd
  subst hoff hcoll hob hsim hivd
  unfold Host.gather
  congr 1
  funext a
  apply Fin.ext
  match a with
  | ⟨0, _⟩ =>
    show GatherDims.start _ (ix2 p q) idx 0 + GatherDims.batchCoord _ (ix2 p q) 0 + GatherDims.offCoord _ (ix2 p q) 0
      = min (idx (ix2 p (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 :=
      GatherDims.slice_collapsed ⟨[1], [0], [], sibd, [0], 1, ss, wf⟩ 0 (List.mem_singleton.mpr rfl)
    have hsi : GatherDims.siIdx ⟨[1], [0], [], sibd, [0], 1, ss, wf⟩ (ix2 p q)
        ⟨List.idxOf (0 : Fin 2) [0], List.idxOf_lt_length_iff.2 (List.mem_singleton.mpr rfl)⟩ = ix2 p (0 : Fin 1) := by
      funext b; apply Fin.ext
      match b with
      | ⟨0, _⟩ => rfl
      | ⟨1, _⟩ => rfl
    rw [hsi]
    show min _ (N - ss 0) = _
    rw [hsl]
  | ⟨1, _⟩ =>
    show GatherDims.start _ (ix2 p q) idx 1 + GatherDims.batchCoord _ (ix2 p q) 1 + GatherDims.offCoord _ (ix2 p q) 1 = q.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add, Nat.add_zero]
    rfl

/-- When row `p`'s start index, read signed, IS the row number `r`, the clamp leaves it: result element `(p, q)` is the
    table's element `(r, q)`. -/
theorem gather_rows_apply_of_toInt {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (r : Fin N)
    (hr : (idx (ix2 p (0 : Fin 1))).toInt = (r.val : Int)) :
    Host.gather d x idx (ix2 p q) = x (ix2 r q) := by
  have hN : 0 < N := Nat.lt_of_le_of_lt (Nat.zero_le _) r.isLt
  rw [gather_rows_apply d hoff hcoll hob hsim hivd x idx p q hN]
  congr 2
  apply Fin.ext
  show min (idx (ix2 p (0 : Fin 1))).toInt.toNat (N - 1) = r.val
  rw [hr, Int.toNat_natCast]
  have := r.isLt
  omega

end RowGather

end
-- ==== Proof.KernelValue.lean ====
/-
  The kernel program's result is the edge score.

  After the region the host reads, for every edge, the endpoints' rows of the two projected tables (two row gathers,
  the start index clamped into the table and NOT wrapped), adds them and the bias, and applies the logistic function.
  The first table holds every node's projection by the weight's upper half and the second by its lower half, so
  where the signed value of every index entry is a row number, element `(e, c)` of the result is the logistic function
  of `Σ_k h[s e, k] · W[k, c] + Σ_k h[d e, k] · W[128 + k, c] + b[c]`: the edge score.
-/
import proofs.«404936_j82592221102892_3_alg».proof.Proof.KernelTables
import proofs.«404936_j82592221102892_3_alg».proof.Proof.KernelWeights
import proofs.«404936_j82592221102892_3_alg».proof.Proof.LibRowGather
import proofs.«404936_j82592221102892_3_alg».proof.Proof.Spec
import Idealize.ShloMosaic.Lib.StableHlo.Run

set_option maxRecDepth 16384

noncomputable section

open scoped BigOperators

namespace Cert.KernelIdeal.NodeProj

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-- The core's buffer contents at the region's exit: the four arrays of the pipeline as the run leaves them, every
    other buffer as the region found it. -/
abbrev exitVal (c : Dev nD) : Valuation τ sig (Elt Ideal) :=
  Pipeline.withArrays (cfgs 0).spec c (V0 m c) (fun w => (dats m 0 c).arrAt w (cfgs 0).N)

/-- The five buffers the host's last lines read, at their literal types. -/
abbrev tabL (c : Dev nD) : Vec Ideal S100000x128 .bf16 := exitVal m c (Proc.devRef .tc main_v3_0)
abbrev tabR (c : Dev nD) : Vec Ideal S100000x128 .bf16 := exitVal m c (Proc.devRef .tc main_v3_1)
abbrev srcV (c : Dev nD) : IVec S1600000 32 := exitVal m c (Proc.devRef .tc main_arg1)
abbrev dstV (c : Dev nD) : IVec S1600000 32 := exitVal m c (Proc.devRef .tc main_arg2)
abbrev biasV (c : Dev nD) : Vec Ideal S128 .f32 := exitVal m c (Proc.devRef .tc main_arg4)

theorem tabL_eq (c : Dev nD) : tabL m c = table (V m c main_arg0) (V m c main_v2) leftCol :=
  (Pipeline.withArrays_arr spec0 launch0.win.arr_inj c _ _ 2).trans (final_left m c)
theorem tabR_eq (c : Dev nD) : tabR m c = table (V m c main_arg0) (V m c main_v2) rightCol :=
  (Pipeline.withArrays_arr spec0 launch0.win.arr_inj c _ _ 3).trans (final_right m c)
theorem srcV_eq (c : Dev nD) : srcV m c = m ((c : Thread nD τ).loc main_arg1) :=
  (Pipeline.withArrays_of_ne _ c (V0 m c) _ main_arg1 (by exact (by decide : ∀ w, Pipeline.arrRef spec0 w ≠ main_arg1))).trans (V_main_arg1 m c)
theorem dstV_eq (c : Dev nD) : dstV m c = m ((c : Thread nD τ).loc main_arg2) :=
  (Pipeline.withArrays_of_ne _ c (V0 m c) _ main_arg2 (by exact (by decide : ∀ w, Pipeline.arrRef spec0 w ≠ main_arg2))).trans (V_main_arg2 m c)
theorem biasV_eq (c : Dev nD) : biasV m c = m ((c : Thread nD τ).loc main_arg4) :=
  (Pipeline.withArrays_of_ne _ c (V0 m c) _ main_arg4 (by exact (by decide : ∀ w, Pipeline.arrRef spec0 w ≠ main_arg4))).trans (V_main_arg4 m c)

/-- A column of start indices read at row `e` is the index entry `e`. -/
theorem start_col (x : IVec S1600000 32) (e : Fin 1600000) :
    broadcastInDim S1600000x1 ![0] bcast_S1600000_S1600000x1_0 x (ix2 e (0 : Fin 1)) = x (ix1 e) :=
  broadcastInDim_apply _ bcast_S1600000_S1600000x1_0 x (ix2 e (0 : Fin 1)) (ix1 e) (fun a => match a with
    | ⟨0, _⟩ => by show e.val = if (1600000 : Nat) = 1 then 0 else e.val; rw [if_neg (by decide)])

/-- The bias laid along every row, read at `(e, q)`, is the bias at `q`. -/
theorem bias_row (b : FVec Ideal S128 .f32) (e : Fin 1600000) (q : Fin 128) :
    broadcastInDim S1600000x128 ![0, 1] bcast_S1x128_S1600000x128_0_1 (broadcastInDim S1x128 ![1] bcast_S128_S1x128_1 b) (ix2 e q) = b (ix1 q) := by
  refine (broadcastInDim_apply _ bcast_S1x128_S1600000x128_0_1 _ (ix2 e q) (ix2 (0 : Fin 1) q) (fun a => match a with
    | ⟨0, _⟩ => by show 0 = if (1 : Nat) = 1 then 0 else e.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A row of a projected table, over the arguments. -/
theorem left_row (c : Dev nD) (r : Fin 100000) (q : Fin 128) :
    table (V m c main_arg0) (V m c main_v2) leftCol (ix2 r q)
      = EdgeScore.proj (m ((c : Thread nD τ).loc main_arg0)) (m ((c : Thread nD τ).loc main_arg3)) EdgeScore.upper r q := by
  unfold table EdgeScore.proj
  refine Finset.sum_congr rfl fun k _ => ?_
  rw [V_main_arg0, wpair_left]
theorem right_row (c : Dev nD) (r : Fin 100000) (q : Fin 128) :
    table (V m c main_arg0) (V m c main_v2) rightCol (ix2 r q)
      = EdgeScore.proj (m ((c : Thread nD τ).loc main_arg0)) (m ((c : Thread nD τ).loc main_arg3)) EdgeScore.lower r q := by
  unfold table EdgeScore.proj
  refine Finset.sum_congr rfl fun k _ => ?_
  rw [V_main_arg0, wpair_right]

/-- THE RESULT BUFFER after the host's last lines is the edge score, where `s` and `d` are the row numbers the index
    entries name. -/
theorem tail_eq (c : Dev nD) (s d : Fin 1600000 → Fin 100000)
    (hs : ∀ e : Fin 1600000, (m ((c : Thread nD τ).loc main_arg1) (ix1 e)).toInt = ((s e).val : Int))
    (hd : ∀ e : Fin 1600000, (m ((c : Thread nD τ).loc main_arg2) (ix1 e)).toInt = ((d e).val : Int)) :
    Pipeline.afterTail₀ cfgs (dats m) 0 (V0 m) [hostOps1, hostOps1_1, hostOps1_2] c main_v17
      = EdgeScore.score (m ((c : Thread nD τ).loc main_arg0)) (m ((c : Thread nD τ).loc main_arg3)) (m ((c : Thread nD τ).loc main_arg4)) s d := by
  unfold Pipeline.afterTail₀
  simp only [hostOps1, hostOps1_1, hostOps1_2, List.flatten_cons, List.flatten_nil, List.append_nil, List.cons_append, List.nil_append]
  after_results
  funext i
  obtain ⟨e, q, rfl⟩ : ∃ (e : Fin 1600000) (q : Fin 128), i = ix2 e q := ⟨i 0, i 1, eq_ix2 i⟩
  show EdgeScore.logistic
      (Host.gather gather_S100000x128_S1600000x1_S1600000x128_1_0_n_n_0_1_1128 (tabL m c) (broadcastInDim S1600000x1 ![0] bcast_S1600000_S1600000x1_0 (srcV m c)) (ix2 e q)
        + Host.gather gather_S100000x128_S1600000x1_S1600000x128_1_0_n_n_0_1_1128 (tabR m c) (broadcastInDim S1600000x1 ![0] bcast_S1600000_S1600000x1_0 (dstV m c)) (ix2 e q)
        + broadcastInDim S1600000x128 ![0, 1] bcast_S1x128_S1600000x128_0_1 (broadcastInDim S1x128 ![1] bcast_S128_S1x128_1 (biasV m c)) (ix2 e q))
    = EdgeScore.logistic (EdgeScore.logit (m ((c : Thread nD τ).loc main_arg0)) (m ((c : Thread nD τ).loc main_arg3)) (m ((c : Thread nD τ).loc main_arg4)) s d e q)
  rw [tabL_eq, tabR_eq, srcV_eq, dstV_eq, biasV_eq,
    RowGather.gather_rows_apply_of_toInt gather_S100000x128_S1600000x1_S1600000x128_1_0_n_n_0_1_1128 rfl rfl rfl rfl rfl _ _ e q (s e) ((congrArg BitVec.toInt (start_col _ e)).trans (hs e)),
    RowGather.gather_rows_apply_of_toInt gather_S100000x128_S1600000x1_S1600000x128_1_0_n_n_0_1_1128 rfl rfl rfl rfl rfl _ _ e q (d e) ((congrArg BitVec.toInt (start_col _ e)).trans (hd e)),
    left_row, right_row, bias_row]
  rfl

end Cert.KernelIdeal.NodeProj

end
-- ==== Proof.RefValue.lean ====
/-
  The reference computes the edge score.

  The reference first replaces a negative row number `v` by `v + 100000`, reads the endpoints' rows of the node table
  (a row gather, its start index clamped into the table), multiplies each `[1600000, 128]` array of rows by its half of
  the weight, adds the two products and the bias, and applies the logistic function. Where the signed value of every
  index entry is a row number, the replacement and the clamp do nothing, and element `(e, c)` is the logistic function
  of `Σ_k h[s e, k] · W[k, c] + Σ_k h[d e, k] · W[128 + k, c] + b[c]`.
-/
import proofs.«404936_j82592221102892_3_alg».proof.Proof.Gen.ReferenceIdeal.Read
import proofs.«404936_j82592221102892_3_alg».proof.Proof.Spec
import proofs.«404936_j82592221102892_3_alg».proof.Proof.LibRowGather

noncomputable section

open scoped BigOperators

namespace Cert.ReferenceIdeal.RefValue

open Cert.ReferenceIdeal Cert.ReferenceIdeal.Gen Cert.ReferenceIdeal.Read Idealize.ShloMosaic Idealize.ShloMosaic.ValueIdx

/-- The source column of start indices at edge `e`: the wrap-around leaves a row number alone. -/
theorem src_start (x1 : (⟨S1600000, .i32⟩ : BufTy).Contents (Elt Ideal)) (e : Fin 1600000) (r : Fin 100000)
    (hr : (x1 (ix1 e)).toInt = (r.val : Int)) :
    (val_main_v7 (F := Ideal) x1 (ix2 e (0 : Fin 1))).toInt = (r.val : Int) := by
  have hi : idx_main_v7 (ix2 e (0 : Fin 1)) = ix1 e := funext fun a => match a with | ⟨0, _⟩ => rfl
  rw [val_main_v7_apply, hi, val_main_v6_apply, val_main_v3_apply, val_main_v2_apply, val_main_c_apply,
    EdgeScore.slt_zero_of_nonneg _ (by rw [hr]; exact Int.natCast_nonneg _), select_zero]
  exact hr

/-- The destination column of start indices at edge `e`, likewise. -/
theorem dst_start (x2 : (⟨S1600000, .i32⟩ : BufTy).Contents (Elt Ideal)) (e : Fin 1600000) (r : Fin 100000)
    (hr : (x2 (ix1 e)).toInt = (r.val : Int)) :
    (val_main_v15 (F := Ideal) x2 (ix2 e (0 : Fin 1))).toInt = (r.val : Int) := by
  have hi : idx_main_v15 (ix2 e (0 : Fin 1)) = ix1 e := funext fun a => match a with | ⟨0, _⟩ => rfl
  rw [val_main_v15_apply, hi, val_main_v14_apply, val_main_v11_apply, val_main_v10_apply, val_main_c_1_apply,
    EdgeScore.slt_zero_of_nonneg _ (by rw [hr]; exact Int.natCast_nonneg _), select_zero]
  exact hr

/-- The gathered source rows: element `(e, k)` is the node table's `(s e, k)`. -/
theorem src_rows (x0 : (⟨S100000x128, .f32⟩ : BufTy).Contents (Elt Ideal)) (x1 : (⟨S1600000, .i32⟩ : BufTy).Contents (Elt Ideal))
    (e : Fin 1600000) (k : Fin 128) (r : Fin 100000) (hr : (x1 (ix1 e)).toInt = (r.val : Int)) :
    val_main_v8 (F := Ideal) x0 x1 (ix2 e k) = x0 (ix2 r k) := by
  unfold val_main_v8
  exact RowGather.gather_rows_apply_of_toInt gather_S100000x128_S1600000x1_S1600000x128_1_0_n_n_0_1_1128 rfl rfl rfl rfl rfl x0 _ e k r (src_start x1 e r hr)

/-- The gathered destination rows: element `(e, k)` is the node table's `(d e, k)`. -/
theorem dst_rows (x0 : (⟨S100000x128, .f32⟩ : BufTy).Contents (Elt Ideal)) (x2 : (⟨S1600000, .i32⟩ : BufTy).Contents (Elt Ideal))
    (e : Fin 1600000) (k : Fin 128) (r : Fin 100000) (hr : (x2 (ix1 e)).toInt = (r.val : Int)) :
    val_main_v16 (F := Ideal) x0 x2 (ix2 e k) = x0 (ix2 r k) := by
  unfold val_main_v16
  exact RowGather.gather_rows_apply_of_toInt gather_S100000x128_S1600000x1_S1600000x128_1_0_n_n_0_1_1128 rfl rfl rfl rfl rfl x0 _ e k r (dst_start x2 e r hr)

/-- THE REFERENCE'S RESULT is the edge score, where `s` and `d` are the row numbers the index entries name. -/
theorem result_eq (x0 : (⟨S100000x128, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (s d : Fin 1600000 → Fin 100000)
    (hs : ∀ e : Fin 1600000, (x1 (ix1 e)).toInt = ((s e).val : Int))
    (hd : ∀ e : Fin 1600000, (x2 (ix1 e)).toInt = ((d e).val : Int)) :
    val_main_v27 (F := Ideal) x0 x1 x2 x3 x4 = EdgeScore.score x0 x3 x4 s d := by
  funext i
  obtain ⟨e, c, rfl⟩ : ∃ (e : Fin 1600000) (c : Fin 128), i = ix2 e c := ⟨i 0, i 1, eq_ix2 i⟩
  rw [val_main_v27_apply, val_main_v26_apply, val_main_cst_3_apply, val_main_v25_apply, val_main_v24_apply, val_main_cst_apply,
    val_main_v23_apply, val_main_v22_apply, val_main_v21_apply, val_main_v18_apply, val_main_v9_apply, val_main_v17_apply,
    val_main_v20_apply, val_main_v19_apply]
  have hl : ∀ k : Fin 128, val_main_v8 (F := Ideal) x0 x1 (lidx_main_v9 (ix2 e c) k) * val_main_v0 (F := Ideal) x3 (ridx_main_v9 (ix2 e c) k)
      = x0 (ix2 (s e) k) * x3 (ix2 (EdgeScore.upper k) c) := fun k => by
    have e1 : lidx_main_v9 (ix2 e c) k = ix2 e k := funext fun a => match a with | ⟨0, _⟩ => rfl | ⟨1, _⟩ => rfl
    have e2 : idx_main_v0 (ridx_main_v9 (ix2 e c) k) = ix2 (EdgeScore.upper k) c := funext fun a => match a with | ⟨0, _⟩ => rfl | ⟨1, _⟩ => rfl
    rw [e1, src_rows x0 x1 e k (s e) (hs e), val_main_v0_apply, e2]
  have hr : ∀ k : Fin 128, val_main_v16 (F := Ideal) x0 x2 (lidx_main_v17 (ix2 e c) k) * val_main_v1 (F := Ideal) x3 (ridx_main_v17 (ix2 e c) k)
      = x0 (ix2 (d e) k) * x3 (ix2 (EdgeScore.lower k) c) := fun k => by
    have e1 : lidx_main_v17 (ix2 e c) k = ix2 e k := funext fun a => match a with | ⟨0, _⟩ => rfl | ⟨1, _⟩ => rfl
    have e2 : idx_main_v1 (ridx_main_v17 (ix2 e c) k) = ix2 (EdgeScore.lower k) c := funext fun a => match a with | ⟨0, _⟩ => rfl | ⟨1, _⟩ => rfl
    rw [e1, dst_rows x0 x2 e k (d e) (hd e), val_main_v1_apply, e2]
  have hb : idx_main_v19 (idx_main_v20 (ix2 e c)) = ix1 c := funext fun a => match a with | ⟨0, _⟩ => rfl
  rw [Finset.sum_congr rfl fun k _ => hl k, Finset.sum_congr rfl fun k _ => hr k, hb]
  rfl

end Cert.ReferenceIdeal.RefValue

end
-- ==== Proof.PreRange.lean ====
/-
  What the precondition says of the two index inputs.

  The precondition is a conjunction of five `jnp.all` tests; the last two say that every entry `v` of the source and of
  the destination index array satisfies `0 ≤ v` and `v < 100000` as signed 32-bit words. Read back, entry by entry:
  the signed value of every index entry is a row number of the `[100000, 128]` node table.
-/
import proofs.«404936_j82592221102892_3_alg».proof.Pre_finite_inputs
import proofs.«404936_j82592221102892_3_alg».proof.Proof.Spec
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

instance : Subsingleton S_.Idx := ⟨fun a b => funext fun d => d.elim0⟩

variable {F : FTy → Type} [FloatOps F] [Facts]

/-- Where the precondition holds, every entry of both index arrays, read signed, lies in `[0, 100000)`. -/
theorem index_range (a0 : FVec F S100000x128 .f32) (a1 a2 : IVec S1600000 32) (a3 : FVec F S256x128 .f32) (a4 : FVec F S128 .f32)
    (h : fn (F := F) a0 a1 a2 a3 a4 = fun _ => 1#1) :
    (∀ i : S1600000.Idx, 0 ≤ (a1 i).toInt ∧ (a1 i).toInt < 100000)
      ∧ (∀ i : S1600000.Idx, 0 ≤ (a2 i).toInt ∧ (a2 i).toInt < 100000) := by
  have h0 := congrFun h ix0
  dsimp only [fn, fn_part1] at h0
  obtain ⟨h20, h26⟩ := IntOp.andi_eq_one.1 h0
  obtain ⟨-, h19⟩ := IntOp.andi_eq_one.1 h20
  constructor
  · intro i
    obtain ⟨hge, hlt⟩ := IntOp.andi_eq_one.1 (Host.reduce_andi_all _ _ _ _ ix0 h19 i)
    exact EdgeScore.toInt_range_of_bits (a1 i) hge hlt
  · intro i
    obtain ⟨hge, hlt⟩ := IntOp.andi_eq_one.1 (Host.reduce_andi_all _ _ _ _ ix0 h26 i)
    exact EdgeScore.toInt_range_of_bits (a2 i) hge hlt

end Cert.Pre_finite_inputs.Range

end
-- ==== Proof.lean ====
/-
  The kernel's edge scores are the reference's, over the extended reals.

  Both programs score every edge `e` of a graph whose nodes carry a row of `h : [100000, 128]`: with `s e`, `d e` the
  endpoints, `W : [256, 128]` two stacked halves and `b : [128]` a bias, the result at `(e, c)` is the logistic function
  of `Σ_k h[s e, k] · W[k, c] + Σ_k h[d e, k] · W[128 + k, c] + b[c]`. The reference reads the endpoints' rows and
  multiplies each edge's rows by the halves; the kernel projects every node once by both halves (one pipelined matrix
  product over 25 blocks of rows) and reads the endpoints' rows of the two projected tables. Reading a row and then
  taking its product, or taking every row's product and then reading, is the same sum: nothing is regrouped, and the
  proof uses no finiteness.

  The two programs treat an index entry that is no row number differently: the reference wraps a negative entry
  around (`v + 100000`) before its clamped row read, the kernel's read only clamps. Under the precondition's two range
  conjuncts — every entry of both index arrays satisfies `0 ≤ v < 100000` — the wrap and the clamps do nothing, and each
  side reads row `v`. That is the only place the precondition is used.

  The three frames are the generated ones (the reference's its generated run with the result dropped); the
  idealization rewrote nothing, so its conjunct is `True`.
-/
import proofs.«404936_j82592221102892_3_alg».proof.Defs
import proofs.«404936_j82592221102892_3_alg».proof.Proof.Gen.Kernel
import proofs.«404936_j82592221102892_3_alg».proof.Proof.Gen.Kernel.Skeleton
import proofs.«404936_j82592221102892_3_alg».proof.Proof.Gen.Kernel.Launch
import proofs.«404936_j82592221102892_3_alg».proof.Proof.Gen.Kernel.Points
import proofs.«404936_j82592221102892_3_alg».proof.Proof.Gen.Kernel.Frame
import proofs.«404936_j82592221102892_3_alg».proof.Proof.Gen.KernelIdeal
import proofs.«404936_j82592221102892_3_alg».proof.Proof.Gen.KernelIdeal.Skeleton
import proofs.«404936_j82592221102892_3_alg».proof.Proof.Gen.KernelIdeal.Launch
import proofs.«404936_j82592221102892_3_alg».proof.Proof.Gen.KernelIdeal.Points
import proofs.«404936_j82592221102892_3_alg».proof.Proof.Gen.KernelIdeal.Frame
import proofs.«404936_j82592221102892_3_alg».proof.Proof.Gen.ReferenceIdeal
import proofs.«404936_j82592221102892_3_alg».proof.Proof.Gen.Pre_finite_inputs
import proofs.«404936_j82592221102892_3_alg».proof.Proof.Gen.ReferenceIdeal.Run
import proofs.«404936_j82592221102892_3_alg».proof.Proof.Gen.ReferenceIdeal.Read
import proofs.«404936_j82592221102892_3_alg».proof.Proof.KernelValue
import proofs.«404936_j82592221102892_3_alg».proof.Proof.RefValue
import proofs.«404936_j82592221102892_3_alg».proof.Proof.PreRange
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The kernel program's run, its result named: the edge score at the row numbers `s`, `d` the index entries name. -/
theorem kernel_run (m : (ℓ : Loc Cert.KernelIdeal.nD Cert.KernelIdeal.τ Cert.KernelIdeal.sig) → Buf (Elt Ideal) ℓ) (ρ : Dev Cert.KernelIdeal.nD → PrngReg)
    (s d : Dev Cert.KernelIdeal.nD → Fin 1600000 → Fin 100000)
    (hs : ∀ (c : Dev Cert.KernelIdeal.nD) (e : Fin 1600000), (m ((c.tc : Thread Cert.KernelIdeal.nD Cert.KernelIdeal.τ).loc Cert.KernelIdeal.main_arg1) (ix1 e)).toInt = ((s c e).val : Int))
    (hd : ∀ (c : Dev Cert.KernelIdeal.nD) (e : Fin 1600000), (m ((c.tc : Thread Cert.KernelIdeal.nD Cert.KernelIdeal.τ).loc Cert.KernelIdeal.main_arg2) (ix1 e)).toInt = ((d c e).val : Int)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v17)
          = EdgeScore.score (m ((c.tc : Thread Cert.KernelIdeal.nD Cert.KernelIdeal.τ).loc Cert.KernelIdeal.main_arg0)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (s c) (d c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  open Cert.KernelIdeal Cert.KernelIdeal.Gen in
  (θ_run defs _ _).mono (fun _ h c =>
    ⟨((h c).2 main_v17 (Pipeline.mem_restRefs_of main_v17 (by decide) (by decide))).trans
        (Cert.KernelIdeal.NodeProj.tail_eq m c (s c) (d c) (hs c) (hd c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- From memories that agree on the arguments both programs end with the edge score in their result buffers. -/
theorem algebraic : Cert.algebraic_KernelIdeal_ReferenceIdeal := by
  intro m ρ m' ρ' hpre hagree
  have hrange := fun c : Dev Cert.KernelIdeal.nD => Cert.Pre_finite_inputs.Range.index_range (F := Ideal) _ _ _ _ _ (hpre c)
  refine ⟨fun c => EdgeScore.score (m ((c.tc : Thread Cert.KernelIdeal.nD Cert.KernelIdeal.τ).loc Cert.KernelIdeal.main_arg0)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (fun e => EdgeScore.rowOf _ ((hrange c).1 (ix1 e))) (fun e => EdgeScore.rowOf _ ((hrange c).2 (ix1 e))),
    kernel_run m ρ _ _ (fun c e => EdgeScore.toInt_eq_rowOf _ ((hrange c).1 (ix1 e))) (fun c e => EdgeScore.toInt_eq_rowOf _ ((hrange c).2 (ix1 e))), ?_⟩
  refine (θ_run Cert.ReferenceIdeal.defs _ _).mono (fun _ h c => ⟨(h c).1.trans ((Cert.ReferenceIdeal.Read.val_main_v27_eq _ _ _ _ _).trans ?_), (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _ _ _
    (fun e => EdgeScore.toInt_eq_rowOf _ ((hrange c).1 (ix1 e))) (fun e => EdgeScore.toInt_eq_rowOf _ ((hrange c).2 (ix1 e)))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
